-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16x2048x64 .f32) (main_arg1 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  main_v8
-- ==== Kernel.lean ====
abbrev S16x2048x64 : Shape := ⟨3, ![16, 2048, 64]⟩
abbrev S16x2048x2048 : Shape := ⟨3, ![16, 2048, 2048]⟩
abbrev S1x512x2048 : Shape := ⟨3, ![1, 512, 2048]⟩
abbrev S1x2048x64 : Shape := ⟨3, ![1, 2048, 64]⟩
abbrev S1x512x64 : Shape := ⟨3, ![1, 512, 64]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S2048x64 : Shape := ⟨2, ![2048, 64]⟩
abbrev S512x64 : Shape := ⟨2, ![512, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S16x2048x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S2048x2048 : Shape := ⟨2, ![2048, 2048]⟩
abbrev S_ : Shape := ⟨0, ![]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S1x2048x2048, .f32⟩
  | .hbm, ⟨10, _⟩ => ⟨S16x2048x2048, .f32⟩
  | .hbm, ⟨11, _⟩ => ⟨S16x2048x2048, .f32⟩
  | .hbm, ⟨12, _⟩ => ⟨S16x2048x64, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x64, .f32⟩
  | .hbm, ⟨17, _⟩ => ⟨S16x2048x64, .f32⟩
  | .hbm, ⟨18, _⟩ => ⟨S16x2048x64, .i1⟩
  | .hbm, ⟨19, _⟩ => ⟨S_, .f32⟩
  | .hbm, ⟨20, _⟩ => ⟨S16x2048x64, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x64_0_1_2 : S16x2048x1.BroadcastsInDim S16x2048x64 (![0, 1, 2] : Fin 3 → Fin S16x2048x64.rank)
  bcast_S_S16x2048x64 : S_.BroadcastsInDim S16x2048x64 (![] : Fin 0 → Fin S16x2048x64.rank)
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.RowMean.lean ====
/-
  The weighted mean of a node's neighbours, the node itself included.

  For one batch entry, one node `r` and one feature `d`: with adjacency weights `e r k` (any extended reals) and the
  self-loop weight `loop r k` (one when `k = r`, zero otherwise), the row of weights is `a k = e r k + loop r k`, and
  the result is the quotient of `∑ k, a k · x k d` by `∑ k, a k` — the extended reals' quotient, which is defined
  for every divisor, so no case is left out and no rounding or summation order is in it. A test "is the quotient
  different from itself" is never true on the extended reals, so replacing such entries by zero changes nothing.

  The diagonal is found by comparing 32-bit words of row and column numbers below 2048, which is comparing the
  numbers; a row number may be spelt as a tile's number times the tile height plus the row inside the tile.
-/
import Idealize.ShloMosaic.Lib.ValueIdx
import Idealize.ShloMosaic.Lib.IdealHost
import Idealize.ShloMosaic.PureOps.Ideal.Laws

noncomputable section

namespace Cert.RowMean

open Idealize.ShloMosaic Idealize.ShloMosaic.ValueIdx

/-- The self-loop weight between rows `r` and `k`: one on the diagonal, zero off it. -/
def loop (r k : ℕ) : EReal := if r = k then 1 else 0

/-- A row of weights `a` against a column of features `x`: the weighted sum over the sum of the weights. -/
def rowMean (a x : Fin 2048 → EReal) : EReal := Ideal.div (∑ k : Fin 2048, a k * x k) (∑ k : Fin 2048, a k)

/-- The mean depends on the weights and the features only through their entries. -/
theorem rowMean_congr {a a' x x' : Fin 2048 → EReal} (ha : ∀ k, a k = a' k) (hx : ∀ k, x k = x' k) :
    rowMean a x = rowMean a' x' := by
  rw [show a = a' from funext ha, show x = x' from funext hx]

/-- The result for batch entry `b`, node `r`, feature `d`. -/
def meanAt (nodes : (⟨3, ![16, 2048, 64]⟩ : Shape).Idx → EReal) (edges : (⟨3, ![16, 2048, 2048]⟩ : Shape).Idx → EReal)
    (b : Fin 16) (r : Fin 2048) (d : Fin 64) : EReal :=
  rowMean (fun k => edges (ix3 b r k) + loop r.val k.val) (fun k => nodes (ix3 b k d))

/-- The whole result array, index by index. -/
def mean (nodes : (⟨3, ![16, 2048, 64]⟩ : Shape).Idx → EReal) (edges : (⟨3, ![16, 2048, 2048]⟩ : Shape).Idx → EReal) :
    (⟨3, ![16, 2048, 64]⟩ : Shape).Idx → EReal :=
  fun i => meanAt nodes edges (i 0) (i 1) (i 2)

/-! ## A quotient never differs from itself -/

/-- "Different from itself", ordered or not, is the bit zero on the extended reals. -/
theorem cmp_ne_self (q : EReal) : Ideal.cmp .une q q = 0#1 ∧ Ideal.cmp .one q q = 0#1 := by
  constructor <;> simp [Ideal.cmp]

/-- So the choice between a replacement `z` and `q` on that test is `q`. -/
theorem select_une_self (z q : EReal) : Scalar.select (Ideal.cmp .une q q) z q = q := by
  rw [(cmp_ne_self q).1, select_zero]

theorem select_one_self (z q : EReal) : Scalar.select (Ideal.cmp .one q q) z q = q := by
  rw [(cmp_ne_self q).2, select_zero]

/-! ## The diagonal, found by comparing words -/

/-- Words of numbers below 2³² are equal exactly when the numbers are. -/
theorem word_inj {r k : ℕ} (hr : r < 2 ^ 32) (hk : k < 2 ^ 32) : BitVec.ofNat 32 r = BitVec.ofNat 32 k ↔ r = k := by
  constructor
  · intro h
    have e := congrArg BitVec.toNat h
    simp only [BitVec.toNat_ofNat] at e
    rwa [Nat.mod_eq_of_lt hr, Nat.mod_eq_of_lt hk] at e
  · rintro rfl; rfl

/-- The comparison bit of two such words. -/
theorem cmpi_eq_word {r k : ℕ} (hr : r < 2 ^ 32) (hk : k < 2 ^ 32) :
    IntOp.cmpi .eq (BitVec.ofNat 32 r) (BitVec.ofNat 32 k) = if r = k then 1#1 else 0#1 := by
  unfold IntOp.cmpi
  by_cases h : r = k
  · subst h; simp
  · have hne : (BitVec.ofNat 32 r == BitVec.ofNat 32 k) = false :=
      beq_eq_false_iff_ne.mpr fun e => h ((word_inj hr hk).mp e)
    rw [if_neg h]
    show BitVec.ofBool (BitVec.ofNat 32 r == BitVec.ofNat 32 k) = 0#1
    rw [hne]; rfl

/-- Row number plus the word zero against the column number, turned into a float: the self-loop weight. -/
theorem loop_of_sum_zero (r k : ℕ) (hr : r < 2048) (hk : k < 2048) :
    FloatOps.uitofp (F := Ideal) .f32 (IntOp.cmpi .eq (IntOp.addi (BitVec.ofNat 32 r) 0#32) (BitVec.ofNat 32 k)) = loop r k := by
  rw [show IntOp.addi (BitVec.ofNat 32 r) 0#32 = BitVec.ofNat 32 r from BitVec.add_zero _,
    cmpi_eq_word (by omega) (by omega)]
  unfold loop
  show (((if r = k then 1#1 else 0#1 : BitVec 1).toNat : ℝ) : EReal) = _
  split <;> simp

/-- Tile number times the tile height plus the row inside the tile, against the column number, choosing between the
    float one and the float zero: the self-loop weight of that row. -/
theorem loop_of_tile (i1 p k : ℕ) (hi : i1 < 4) (hp : p < 512) (hk : k < 2048) :
    Scalar.select (IntOp.cmpi .eq (IntOp.addi (Scalar.muli (BitVec.ofNat 32 i1) 512#32) (BitVec.ofNat 32 p)) (BitVec.ofNat 32 k))
        (Ideal.ofBits .f32 0x3F800000#32) (Ideal.ofBits .f32 0x00000000#32) = loop (i1 * 512 + p) k := by
  have e : IntOp.addi (Scalar.muli (BitVec.ofNat 32 i1) 512#32) (BitVec.ofNat 32 p) = BitVec.ofNat 32 (i1 * 512 + p) := by
    show BitVec.ofNat 32 i1 * BitVec.ofNat 32 512 + BitVec.ofNat 32 p = _
    rw [← BitVec.ofNat_mul, ← BitVec.ofNat_add]
  rw [e, cmpi_eq_word (by omega) (by omega), Ideal.ofBits_one_f32, Ideal.ofBits_zero_f32]
  unfold loop
  split
  · exact select_one _ _
  · exact select_zero _ _

end Cert.RowMean

end
-- ==== Proof.LibKeepdims.lean ====
/-
  A reduced row kept as a column.

  A sum over the columns of an `a × b` array is a vector of `a` numbers; kept as an `a × 1` column it reads, at
  `(p, 0)`, entry `p` of that vector, and the column laid across `b` columns reads, at `(p, c)`, the column's entry
  `(p, 0)`: every entry of row `p` of the widened array is the one number of row `p`.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` vector cast to an `[a, 1]` column reads, at `(p, u)`, the vector at `p`: both have row-major position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.TileMean.lean ====
/-
  One tile of the kernel computes the weighted mean of its 512 rows.

  At grid point (b, t) the body holds rows t·512 … t·512 + 511 of batch entry b's adjacency and all of that entry's
  features. It adds the self-loop weight — found by comparing the row's number t·512 + p with the column's number —
  to the adjacency, sums each row's weights, multiplies the weights (narrowed to a shorter float format, which on
  the extended reals changes nothing) with the features into a zero accumulator, divides each product row by its
  weight sum, and replaces entries "different from themselves" — there are none — by zero. So entry (p, d) of the
  stored block is the mean of `Cert.RowMean` of the block's row p and the features' column d.
-/
import proofs.«106207_j55731495633081_1_alg».proof.Proof.Gen.KernelIdeal.Skeleton
import proofs.«106207_j55731495633081_1_alg».proof.Proof.RowMean
import proofs.«106207_j55731495633081_1_alg».proof.Proof.LibKeepdims
import proofs.«106207_j55731495633081_1_alg».proof.Proof.LibDense
import Idealize.ShloMosaic.Lib.ValueLayout
import Idealize.ShloMosaic.Lib.Pipeline.Value
import Idealize.ShloMosaic.PureOps.Ideal.Laws

noncomputable section

namespace Cert.KernelIdeal.TileMean

open Cert.KernelIdeal Cert.KernelIdeal.Gen Idealize.ShloMosaic Idealize.ShloMosaic.ValueIdx
open Cert.RowMean Cert.LibKeepdims Cert.LibDense

/-- The tile's weights: the loaded adjacency rows plus the self loops of rows t·512 + p. -/
def tileWeights (i : grid0.Coords) (e : Vec Ideal S1x512x2048 .f32) : FVec Ideal S512x2048 .f32 :=
  addf (shapeCast S512x2048 e shapeCasts_S1x512x2048_S512x2048)
    (select
      (cmpi .eq
        (broadcastTo S512x2048
          (addi (broadcast S512x1 (Scalar.muli (BitVec.ofNat 32 (i 1).val) 512#32)) (iota .tc S512x1 32 [0] iota_S512x1_d0_w32))
          broadcasts_S512x1_S512x2048)
        (broadcastTo S512x2048 (iota .tc S1x2048 32 [1] iota_S1x2048_d1_w32) broadcasts_S1x2048_S512x2048))
      (broadcast S512x2048 (Scalar.ofBits .f32 0x3F800000#32)) (broadcast S512x2048 (Scalar.ofBits .f32 0x00000000#32)))

/-- Rows of weights against columns of features: product over weight sum, "different from itself" replaced by zero. -/
def quotOrZero (w : FVec Ideal S512x2048 .f32) (y : FVec Ideal S2048x64 .f32) : FVec Ideal S512x64 .f32 :=
  let q : FVec Ideal S512x64 .f32 :=
    divf
      (matmul dot_S512x2048_S2048x64_S512x64_1_0_0_1_n_n none (truncf .bf16 w bitsLt_bf16_f32) (truncf .bf16 y bitsLt_bf16_f32)
        (constant S512x64 .f32 0x00000000#32))
      (broadcastTo S512x64
        (shapeCast S512x1 (multiReduction .add [1] S512 w 0x00000000#32 reduces_S512x2048_S512 (.inl rfl) rfl) shapeCasts_S512_S512x1)
        broadcasts_S512x1_S512x64)
  select (cmpf .one q q) (broadcast S512x64 (Scalar.ofBits .f32 0x00000000#32)) q

/-- The stored value is those two, on the loaded blocks. -/
theorem pay_eq (i : grid0.Coords) (e : Vec Ideal S1x512x2048 .f32) (x : Vec Ideal S1x2048x64 .f32) :
    k0_pay1 (F := Ideal) i e x
      = shapeCast S1x512x64 (quotOrZero (tileWeights i e) (shapeCast S2048x64 x shapeCasts_S1x2048x64_S2048x64))
          shapeCasts_S512x64_S1x512x64 := rfl

/-- The product's dimension numbers are the rows-by-columns ones. -/
theorem dot_plain : dot_S512x2048_S2048x64_S512x64_1_0_0_1_n_n = DotDims.plain 512 2048 64 := rfl

/-- A weight of the tile: adjacency plus the self loop of row t·512 + p. -/
theorem tileWeights_apply (i : grid0.Coords) (e : Vec Ideal S1x512x2048 .f32) (p : Fin 512) (k : Fin 2048) :
    tileWeights i e (ix2 p k) = e (ix3 (0 : Fin 1) p k) + loop ((i 1).val * 512 + p.val) k.val := by
  unfold tileWeights
  show shapeCast S512x2048 e _ (ix2 p k) + Scalar.select (IntOp.cmpi .eq
        (broadcastTo S512x2048
          (addi (broadcast S512x1 (Scalar.muli (BitVec.ofNat 32 (i 1).val) 512#32)) (iota .tc S512x1 32 [0] iota_S512x1_d0_w32))
          broadcasts_S512x1_S512x2048 (ix2 p k))
        (broadcastTo S512x2048 (iota .tc S1x2048 32 [1] iota_S1x2048_d1_w32) broadcasts_S1x2048_S512x2048 (ix2 p k)))
      (Ideal.ofBits .f32 0x3F800000#32) (Ideal.ofBits .f32 0x00000000#32) = _
  rw [shapeCast_1ab_ab_apply, broadcastTo_a1_ab_apply, broadcastTo_1b_ab_apply]
  show _ + Scalar.select (IntOp.cmpi .eq
        (IntOp.addi (Scalar.muli (BitVec.ofNat 32 (i 1).val) 512#32) (iota .tc S512x1 32 [0] iota_S512x1_d0_w32 (ix2 p (0 : Fin 1))))
        (iota .tc S1x2048 32 [1] iota_S1x2048_d1_w32 (ix2 (0 : Fin 1) k)))
      (Ideal.ofBits .f32 0x3F800000#32) (Ideal.ofBits .f32 0x00000000#32) = _
  rw [iota_single_apply, iota_single_apply]
  exact congrArg (_ + ·) (loop_of_tile (i 1).val p.val k.val (i 1).isLt p.isLt k.isLt)

/-- Entry (p, d) of the quotient is the mean of row p of the weights against column d of the features. -/
theorem quotOrZero_apply (w : FVec Ideal S512x2048 .f32) (y : FVec Ideal S2048x64 .f32) (p : Fin 512) (d : Fin 64) :
    quotOrZero w y (ix2 p d) = rowMean (fun k => w (ix2 p k)) (fun k => y (ix2 k d)) := by
  unfold quotOrZero
  refine (select_one_self _ _).trans ?_
  unfold rowMean
  show Ideal.div _ _ = _
  congr 1
  · rw [dot_plain]
    exact matmul_plain_zero_apply none (truncf .bf16 w bitsLt_bf16_f32) (truncf .bf16 y bitsLt_bf16_f32) p d
  · rw [broadcastTo_a1_ab_apply, shapeCast_a_a1_apply]
    refine (Ideal.multiReduction_add_single w 0x00000000#32 reduces_S512x2048_S512 (.inl rfl) rfl (ix1 p)).trans ?_
    exact Finset.sum_congr rfl fun k _ => congrArg w (funext fun a => Fin.ext (by match a with | ⟨0, _⟩ => rfl | ⟨1, _⟩ => rfl))

/-- The stored block at (u, p, d): the mean of the block's row p — adjacency plus self loops — against the features'
    column d. -/
theorem pay_apply (i : grid0.Coords) (e : Vec Ideal S1x512x2048 .f32) (x : Vec Ideal S1x2048x64 .f32)
    (u : Fin 1) (p : Fin 512) (d : Fin 64) :
    k0_pay1 (F := Ideal) i e x (ix3 u p d)
      = rowMean (fun k => e (ix3 (0 : Fin 1) p k) + loop ((i 1).val * 512 + p.val) k.val) (fun k => x (ix3 (0 : Fin 1) k d)) := by
  rw [pay_eq, shapeCast_ab_1ab_apply, quotOrZero_apply]
  exact rowMean_congr (fun k => tileWeights_apply i e p k) (fun k => shapeCast_1ab_ab_apply x _ k d)

end Cert.KernelIdeal.TileMean

end
-- ==== Proof.ArrayMean.lean ====
/-
  The kernel's result array is the weighted mean of the neighbours.

  The grid has a point for every batch entry b and every tile t of 512 rows. At that point the adjacency window holds
  rows t·512 … t·512 + 511 of entry b (all 2048 columns), the feature window all of entry b's features, and the
  result window rows t·512 … t·512 + 511 of entry b's result. So index (0, p, k) of the adjacency block is index
  (b, t·512 + p, k) of the array, (0, k, d) of the feature block is (b, k, d), and what the point writes at (0, p, d)
  — the mean of the block's row p with the self loop of row t·512 + p, against the features' column d — is the mean
  of the arrays at (b, t·512 + p, d). Row r of entry b lies in tile r / 512, so the blocks cover the result array,
  which therefore ends holding the mean everywhere.
-/
import proofs.«106207_j55731495633081_1_alg».proof.Proof.ValueKI
import proofs.«106207_j55731495633081_1_alg».proof.Proof.TileMean

noncomputable section

namespace Cert.KernelIdeal.ArrayMean

open Cert.KernelIdeal Cert.KernelIdeal.Gen Cert.KernelIdeal.GenP Cert.KernelIdeal.ValueP Cert.KernelIdeal.TileMean
open Idealize.ShloMosaic Idealize.ShloMosaic.TcCoe Idealize.ShloMosaic.ValueIdx Idealize.SL.Sem Cert.RowMean
open Idealize.ShloMosaic.Pipeline (Dat)

variable (m : (ℓ : Loc nD τ sig) → Buf (Elt Ideal) ℓ) (ρ : Dev nD → PrngReg)

/-- Batch entry by node by neighbour: the adjacency array as the region finds it. -/
abbrev edgesArr (c : Dev nD) : S16x2048x2048.Idx → EReal := V m c main_arg1
/-- Batch entry by node by feature: the feature array as the region finds it. -/
abbrev nodesArr (c : Dev nD) : S16x2048x64.Idx → EReal := V m c main_arg0

theorem zeros3 : (![0, 0, 0] : Fin 3 → Nat) = fun _ => 0 := funext fun a => by fin_cases a <;> rfl

/-- The printed index maps at every grid point: the result's tile number is the point's second coordinate and it has
    one block of features; the adjacency block sits at the same batch entry and tile, at column block zero; the feature
    block at the same batch entry, at row and column block zero; and the batch entry and the tile are in range. -/
theorem tile_index : ∀ t : Fin cfg0.N,
    win0_2.index t (1 : Fin 3) = (grid0.coords t 1).val
    ∧ win0_2.index t (2 : Fin 3) = 0
    ∧ win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) < 16
    ∧ win0_2.index t (1 : Fin 3) < 4 :=
  (by decide +kernel : ∀ t : Fin grid0.N, _)

/-- Every batch entry and tile is some point's. -/
theorem tile_onto : ∀ (b : Fin 16) (q : Fin 4), ∃ t : Fin cfg0.N, win0_2.index t = ![b.val, q.val, 0] :=
  (by decide +kernel : ∀ (b : Fin 16) (q : Fin 4), ∃ t : Fin grid0.N, win0_2.index t = ![b.val, q.val, 0])

/-- What point `t` writes back is block `t` of the mean of the argument arrays. -/
theorem flushed_eq (c : Dev nD) (t : Fin cfg0.N) :
    (dats m 0 c).flushed 2 t
      = ((cfg0.win 2).blk t).view.read (Elt Ideal) (mean (V m c main_arg0) (V m c main_arg1)) := by
  rw [flushed2]
  unfold out0_2
  rw [View.canon_unit_zero zeros3]
  simp only [View.ld_unit_zero (S := S1x512x2048) zeros3, View.ld_unit_zero (S := S1x2048x64) zeros3]
  obtain ⟨e21, e22, e00, e01, e02, e10, e11, e12, b0, b1⟩ := tile_index t
  funext j
  obtain ⟨u, p, d, rfl⟩ : ∃ (u : Fin 1) (p : Fin 512) (d : Fin 64), j = ix3 u p d := ⟨j 0, j 1, j 2, eq_ix3 j⟩
  show k0_pay1 (F := Ideal) (grid0.coords t) (iblk m c 0 t) (iblk m c 1 t) (ix3 u p d)
      = mean (V m c main_arg0) (V m c main_arg1) (((cfg0.win 2).blk t).view.emb (ix3 u p d))
  refine (pay_apply (grid0.coords t) (iblk m c 0 t) (iblk m c 1 t) u p d).trans ?_
  have hu : u.val = 0 := by omega
  have h0 : ((((cfg0.win 2).blk t).view.emb (ix3 u p d)) 0).val = win0_2.index t (0 : Fin 3) := by
    show win0_2.index t (0 : Fin 3) * 1 + 1 * u.val = _; omega
  have h1 : ((((cfg0.win 2).blk t).view.emb (ix3 u p d)) 1).val = win0_2.index t (1 : Fin 3) * 512 + p.val := by
    show win0_2.index t (1 : Fin 3) * 512 + 1 * p.val = _; omega
  have h2 : ((((cfg0.win 2).blk t).view.emb (ix3 u p d)) 2).val = d.val := by
    show win0_2.index t (2 : Fin 3) * 64 + 1 * d.val = _; omega
  unfold mean meanAt
  refine rowMean_congr (fun k => ?_) (fun k => ?_)
  · show edgesArr m c (((cfg0.win 0).blk t).view.emb (ix3 (0 : Fin 1) p k)) + loop _ _
        = edgesArr m c (ix3 _ _ k) + loop _ _
    rw [h1, e21]
    refine congrArg (fun z => edgesArr m c z + loop _ _) ?_
    funext a; apply Fin.ext
    match a with
    | ⟨0, _⟩ => show win0_0.index t (0 : Fin 3) * 1 + 1 * 0 = _; rw [h0]; omega
    | ⟨1, _⟩ => show win0_0.index t (1 : Fin 3) * 512 + 1 * p.val = _; rw [h1]; omega
    | ⟨2, _⟩ => show win0_0.index t (2 : Fin 3) * 2048 + 1 * k.val = k.val; omega
  · show nodesArr m c (((cfg0.win 1).blk t).view.emb (ix3 (0 : Fin 1) k d)) = nodesArr m c (ix3 _ k _)
    refine congrArg (nodesArr m c) ?_
    funext a; apply Fin.ext
    match a with
    | ⟨0, _⟩ => show win0_1.index t (0 : Fin 3) * 1 + 1 * 0 = _; rw [h0]; omega
    | ⟨1, _⟩ => show win0_1.index t (1 : Fin 3) * 2048 + 1 * k.val = k.val; omega
    | ⟨2, _⟩ => show win0_1.index t (2 : Fin 3) * 64 + 1 * d.val = _; rw [h2]; omega

/-- An index of the result array is in point `t`'s block iff each coordinate is in the block's range on its axis. -/
theorem mem_blk (t : Fin cfg0.N) (i : S16x2048x64.Idx) :
    i ∈ ((cfg0.win 2).blk t).view.set
      ↔ ∀ a : Fin 3, win0_2.index t a * S1x512x64.size a ≤ (i a).val
          ∧ (i a).val < win0_2.index t a * S1x512x64.size a + S1x512x64.size a := by
  show i ∈ ((View.whole main_v0).slice (win0_2.rect t)).set ↔ _
  rw [View.set_slice_whole, Rect.mem_set_unit]
  exact Iff.rfl

/-- Every index of the result array is in the block of its batch entry's point for the tile its row lies in. -/
theorem cover (i : S16x2048x64.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 64 := (i 2).isLt
  obtain ⟨t, ht⟩ := tile_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The result array after the run is the mean of the argument arrays as launched. -/
theorem final (c : Dev nD) :
    (dats m 0 c).arrAt 2 cfg0.N = mean (m ((c : Thread nD τ).loc main_arg0)) (m ((c : Thread nD τ).loc main_arg1)) :=
  (dats m 0 c).arrAt_eq_of_cover 2 (mean (V m c main_arg0) (V m c main_arg1)) (fun t _ => flushed_eq m c t) cover

/-- The run: every weakly fair execution ends with the result array at the mean and the arguments unchanged. -/
theorem run : θ_run defs (onTc (τ := τ) (main (F := Ideal))) ⟨m, fun _ => 0, ρ⟩ fun r => ∀ c : Dev nD,
      r.2.mem ((c : Thread nD τ).loc main_v0) = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayMean

end
-- ==== Proof.RefMean.lean ====
/-
  The reference computes the weighted mean of the neighbours.

  Read one operation at a time: the identity matrix is "row number plus zero equals column number" turned into a
  float and laid over the batch, so at (b, r, k) it is the self-loop weight of r and k; the weights are the adjacency
  plus that; the numerator is the batched product's sum over k of weight (b, r, k) times feature (b, k, d); the
  denominator is zero plus the sum over k of the weights of row (b, r), kept as a column and laid across the
  features; the quotient is the extended reals'; and entries "different from themselves" — there are none — become
  zero. So every entry is the mean of `Cert.RowMean`.
-/
import proofs.«106207_j55731495633081_1_alg».proof.Proof.Gen.ReferenceIdeal.Read
import proofs.«106207_j55731495633081_1_alg».proof.Proof.RowMean
import Idealize.ShloMosaic.Lib.IdealHost

noncomputable section

namespace Cert.ReferenceIdeal.RefMean

open Cert.ReferenceIdeal Cert.ReferenceIdeal.Read Idealize.ShloMosaic Idealize.ShloMosaic.ValueIdx Cert.RowMean

/-- The identity matrix laid over the batch, at (b, r, k): the self-loop weight of rows r and k. -/
theorem eye_apply (b : Fin 16) (r k : Fin 2048) : val_main_v7 (F := Ideal) (ix3 b r k) = loop r.val k.val := by
  rw [val_main_v7_apply, val_main_v6_apply, val_main_v5_apply, val_main_v4_apply, val_main_v3_apply, val_main_v0_apply,
    val_main_v2_apply, val_main_c_apply, val_main_v1_apply]
  exact loop_of_sum_zero r.val k.val r.isLt k.isLt

/-- The weights: adjacency plus self loop. -/
theorem weights_apply (x1 : (⟨S16x2048x2048, .f32⟩ : BufTy).Contents (Elt Ideal)) (b : Fin 16) (r k : Fin 2048) :
    val_main_v8 (F := Ideal) x1 (ix3 b r k) = x1 (ix3 b r k) + loop r.val k.val := by
  rw [val_main_v8_apply, eye_apply]
  rfl

/-- The numerator: the sum over the neighbours of weight times feature. -/
theorem num_apply (x0 : (⟨S16x2048x64, .f32⟩ : BufTy).Contents (Elt Ideal)) (x1 : (⟨S16x2048x2048, .f32⟩ : BufTy).Contents (Elt Ideal))
    (b : Fin 16) (r : Fin 2048) (d : Fin 64) :
    val_main_v9 (F := Ideal) x0 x1 (ix3 b r d) = ∑ k : Fin 2048, (x1 (ix3 b r k) + loop r.val k.val) * x0 (ix3 b k d) := by
  rw [val_main_v9_apply]
  refine Finset.sum_congr rfl fun k _ => ?_
  rw [show lidx_main_v9 (ix3 b r d) k = ix3 b r k from
      funext fun a => Fin.ext (by match a with | ⟨0, _⟩ => rfl | ⟨1, _⟩ => rfl | ⟨2, _⟩ => rfl),
    show ridx_main_v9 (ix3 b r d) k = ix3 b k d from
      funext fun a => Fin.ext (by match a with | ⟨0, _⟩ => rfl | ⟨1, _⟩ => rfl | ⟨2, _⟩ => rfl),
    weights_apply]

/-- The denominator: the sum of the row's weights, the same for every feature. -/
theorem den_apply (x1 : (⟨S16x2048x2048, .f32⟩ : BufTy).Contents (Elt Ideal)) (b : Fin 16) (r : Fin 2048) (d : Fin 64) :
    val_main_v12 (F := Ideal) x1 (ix3 b r d) = ∑ k : Fin 2048, (x1 (ix3 b r k) + loop r.val k.val) := by
  rw [val_main_v12_apply, val_main_v11_apply, val_main_v10_apply, val_main_cst_apply]
  show Ideal.ofBits .f32 0x00000000#32 + _ = _
  rw [Ideal.ofBits_zero_f32, zero_add]
  refine Finset.sum_congr rfl fun k _ => ?_
  rw [show idx_main_v10 (idx_main_v11 (idx_main_v12 (ix3 b r d))) k = ix3 b r k from
      funext fun a => Fin.ext (by match a with | ⟨0, _⟩ => rfl | ⟨1, _⟩ => rfl | ⟨2, _⟩ => rfl),
    weights_apply]

/-- The reference's result array is the mean, index by index. -/
theorem result_eq (x0 : (⟨S16x2048x64, .f32⟩ : BufTy).Contents (Elt Ideal)) (x1 : (⟨S16x2048x2048, .f32⟩ : BufTy).Contents (Elt Ideal)) :
    val_main_v16 (F := Ideal) x0 x1 = mean x0 x1 := by
  funext i
  obtain ⟨b, r, d, rfl⟩ : ∃ (b : Fin 16) (r : Fin 2048) (d : Fin 64), i = ix3 b r d := ⟨i 0, i 1, i 2, eq_ix3 i⟩
  rw [val_main_v16_apply, val_main_v14_apply, val_main_v13_apply, num_apply, den_apply]
  exact select_une_self _ _

end Cert.ReferenceIdeal.RefMean

end
-- ==== Proof.lean ====
/-
  A graph layer's neighbour mean: for each batch entry b, node r and feature d,

      out (b, r, d) = (∑ k, (edges (b, r, k) + [k = r]) · nodes (b, k, d)) / (∑ k, (edges (b, r, k) + [k = r])),

  with entries "different from themselves" replaced by zero. On the extended reals the quotient is defined for every
  divisor and nothing differs from itself, so that replacement changes nothing and both programs compute this one
  function (`Cert.RowMean.mean`):

  * the kernel, tile by tile — each grid point takes 512 rows of one batch entry's adjacency, adds the self loops it
    finds by comparing row and column numbers, sums each row's weights, multiplies weights and features into a zero
    accumulator (the narrowing of both factors to a shorter float format is the identity here) and divides
    (`Cert.KernelIdeal.TileMean`); the tiles' blocks cover the result array (`Cert.KernelIdeal.ArrayMean`);
  * the reference, on whole arrays — the identity matrix laid over the batch, one batched product, one sum over the
    last axis, one quotient (`Cert.ReferenceIdeal.RefMean`).

  The sums on the two sides run over the same terms, so no law beyond reading each operation at an index is needed, and
  the inputs' finiteness is not used. Each program terminates and leaves its arguments as they were; the idealized
  kernel is the kernel's own text read on the extended reals (no rewrite was applied), so that conjunct is trivial.
-/
import proofs.«106207_j55731495633081_1_alg».proof.Defs
import proofs.«106207_j55731495633081_1_alg».proof.Proof.Gen.Kernel
import proofs.«106207_j55731495633081_1_alg».proof.Proof.Gen.Kernel.Skeleton
import proofs.«106207_j55731495633081_1_alg».proof.Proof.Gen.Kernel.Launch
import proofs.«106207_j55731495633081_1_alg».proof.Proof.Gen.Kernel.Points
import proofs.«106207_j55731495633081_1_alg».proof.Proof.FrameK
import proofs.«106207_j55731495633081_1_alg».proof.Proof.Gen.KernelIdeal
import proofs.«106207_j55731495633081_1_alg».proof.Proof.Gen.KernelIdeal.Skeleton
import proofs.«106207_j55731495633081_1_alg».proof.Proof.Gen.KernelIdeal.Launch
import proofs.«106207_j55731495633081_1_alg».proof.Proof.Gen.KernelIdeal.Points
import proofs.«106207_j55731495633081_1_alg».proof.Proof.FrameKI
import proofs.«106207_j55731495633081_1_alg».proof.Proof.ValueKI
import proofs.«106207_j55731495633081_1_alg».proof.Proof.Gen.ReferenceIdeal
import proofs.«106207_j55731495633081_1_alg».proof.Proof.Gen.ReferenceIdeal.Run
import proofs.«106207_j55731495633081_1_alg».proof.Proof.Gen.ReferenceIdeal.Read
import proofs.«106207_j55731495633081_1_alg».proof.Proof.Gen.Pre_finite_inputs
import proofs.«106207_j55731495633081_1_alg».proof.Proof.ArrayMean
import proofs.«106207_j55731495633081_1_alg».proof.Proof.RefMean
import Idealize.ShloMosaic.Adequacy
import Idealize.ShloMosaic.Init

noncomputable section

namespace Cert.Proof

open Idealize.ShloMosaic Idealize.ShloMosaic.TcCoe Idealize.SL.Sem Cert.RowMean

/-- The kernel as printed terminates and keeps its arguments. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on features and adjacency, both programs end with the result array at the mean of
    those arrays, and with their arguments unchanged. -/
theorem algebraic : Cert.algebraic_KernelIdeal_ReferenceIdeal := by
  intro m ρ m' ρ' _ hagree
  refine ⟨fun c => mean (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayMean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefMean.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
